-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn_part1 {F : FTy → Type} [FloatOps F] (main_arg4 : FVec F S2048x256 .f32) (main_arg5 : FVec F S4x256x2048 .f32) (main_arg6 : FVec F S4x256x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S4x256x2048 .f32 := Host.absf main_arg5
  let main_cst_8 : FVec F S_ .f32 := constant S_ .f32 0x7F800000#32
  let main_v25 : FVec F S4x256x2048 .f32 := broadcastInDim S4x256x2048 ![] bcast_S_S4x256x2048 main_cst_8
  let main_v26 : IVec S4x256x2048 1 := cmpf .olt main_v24 main_v25
  let main_c_9 : IVec S_ 1 := constantI S_ 1 1#1
  let main_v27 : IVec S_ 1 := (fun x v => Host.reduce IntOp.andi x v reducesTo_S4x256x2048_S_d0_1_2 h_S_) main_v26 main_c_9
  let main_v28 : IVec S_ 1 := andi main_v23 main_v27
  let main_v29 : FVec F S4x256x2048 .f32 := Host.absf main_arg6
  let main_cst_10 : FVec F S_ .f32 := constant S_ .f32 0x7F800000#32
  let main_v30 : FVec F S4x256x2048 .f32 := broadcastInDim S4x256x2048 ![] bcast_S_S4x256x2048 main_cst_10
  let main_v31 : IVec S4x256x2048 1 := cmpf .olt main_v29 main_v30
  let main_c_11 : IVec S_ 1 := constantI S_ 1 1#1
  let main_v32 : IVec S_ 1 := (fun x v => Host.reduce IntOp.andi x v reducesTo_S4x256x2048_S_d0_1_2 h_S_) main_v31 main_c_11
  let main_v33 : IVec S_ 1 := andi main_v28 main_v32
  main_v33

def fn {F : FTy → Type} [FloatOps F] (main_arg0 : FVec F S4x2048x2048 .f32) (main_arg1 : FVec F S2048x2048 .f32) (main_arg2 : FVec F S2048 .f32) (main_arg3 : FVec F S256x2048 .f32) (main_arg4 : FVec F S2048x256 .f32) (main_arg5 : FVec F S4x256x2048 .f32) (main_arg6 : FVec F S4x256x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩
abbrev S1x256x2048 : Shape := ⟨3, ![1, 256, 2048]⟩
abbrev S4x2048x256 : Shape := ⟨3, ![4, 2048, 256]⟩
abbrev S1x2048 : Shape := ⟨2, ![1, 2048]⟩
abbrev S1x2048x256 : Shape := ⟨3, ![1, 2048, 256]⟩
abbrev S256x256 : Shape := ⟨2, ![256, 256]⟩

abbrev nBuf : Space → Nat
  | .hbm => 26
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S2048x256, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S1x256x2048, .f32⟩
  | .hbm, ⟨15, _⟩ => ⟨S4x256x2048, .f32⟩
  | .hbm, ⟨16, _⟩ => ⟨S4x256x2048, .f32⟩
  | .hbm, ⟨17, _⟩ => ⟨S4x2048x256, .f32⟩
  | .hbm, ⟨18, _⟩ => ⟨S4x2048x256, .bf16⟩
  | .hbm, ⟨19, _⟩ => ⟨S4x2048x2048, .bf16⟩
  | .hbm, ⟨20, _⟩ => ⟨S2048x2048, .f32⟩
  | .hbm, ⟨21, _⟩ => ⟨S2048x2048, .bf16⟩
  | .hbm, ⟨22, _⟩ => ⟨S256x2048, .f32⟩
  | .hbm, ⟨23, _⟩ => ⟨S256x2048, .bf16⟩
  | .hbm, ⟨24, _⟩ => ⟨S1x2048, .f32⟩
  | .hbm, ⟨25, _⟩ => ⟨S4x2048x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S2048x2048, .bf16⟩
  | .local _ .vmem, ⟨5, _⟩ => ⟨S256x2048, .bf16⟩
  | .local _ .vmem, ⟨6, _⟩ => ⟨S1x2048, .f32⟩
  | .local _ .vmem, ⟨7, _⟩ => ⟨S1x256x2048, .f32⟩
  | .local _ .vmem, ⟨8, _⟩ => ⟨S1x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  bcast_S1x256x2048_S4x256x2048_0_1_2 : S1x256x2048.BroadcastsInDim S4x256x2048 (![0, 1, 2] : Fin 3 → Fin S4x256x2048.rank)
  transposes_S4x256x2048_S4x2048x256_0_2_1 : S4x256x2048.Transposes [0, 2, 1] S4x2048x256
  bitsLt_bf16_f32 : FTy.bits .bf16 < FTy.bits .f32
  transposes_S2048x2048_S2048x2048_1_0 : S2048x2048.Transposes [1, 0] S2048x2048
  transposes_S2048x256_S256x2048_1_0 : S2048x256.Transposes [1, 0] S256x2048
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x2048_S2048x2048_S256x2048_1_0_0_1_n_n_wf : DotDims.WF S256x2048 S2048x2048 S256x2048 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x2048x2048.size a
  hwx0_0 : ∀ i : grid0.Coords, EltTy.bits .bf16 = 32 ∨ (Rect.block (s := S4x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x2048x256.size a
  hwx0_1 : ∀ i : grid0.Coords, EltTy.bits .bf16 = 32 ∨ (Rect.block (s := S4x2048x256) S1x2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .bf16 = 32 ∨ (Rect.block (s := S256x2048) S256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v10) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S256x2048 : Shape := ⟨2, ![256, 2048]⟩
abbrev S2048x256 : Shape := ⟨2, ![2048, 256]⟩
abbrev S4x256x2048 : Shape := ⟨3, ![4, 256, 2048]⟩
abbrev S_ : Shape := ⟨0, ![]⟩
abbrev S1x256x2048 : Shape := ⟨3, ![1, 256, 2048]⟩
abbrev S4x2048x256 : Shape := ⟨3, ![4, 2048, 256]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S256x2048, .f32⟩
  | .hbm, ⟨4, _⟩ => ⟨S2048x256, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S1x256x2048, .f32⟩
  | .hbm, ⟨15, _⟩ => ⟨S4x256x2048, .f32⟩
  | .hbm, ⟨16, _⟩ => ⟨S4x256x2048, .f32⟩
  | .hbm, ⟨17, _⟩ => ⟨S4x2048x256, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  bcast_S1x256x2048_S4x256x2048_0_1_2 : S1x256x2048.BroadcastsInDim S4x256x2048 (![0, 1, 2] : Fin 3 → Fin S4x256x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S4x256x2048_S4x2048x256_2_2_1_1_0_0_wf : DotDims.WF S4x2048x2048 S4x256x2048 S4x2048x256 [2] [2] [1] [1] [0] [0]
  dot_S4x2048x2048_S2048x2048_S4x2048x2048_2_1_01_0_n_n_wf : DotDims.WF S4x2048x2048 S2048x2048 S4x2048x2048 [2] [1] [0, 1] [0] [] []
  dot_S4x2048x256_S2048x256_S4x2048x2048_2_1_01_0_n_n_wf : DotDims.WF S4x2048x256 S2048x256 S4x2048x2048 [2] [1] [0, 1] [0] [] []

variable [Facts₀]

def dot_S4x2048x2048_S4x256x2048_S4x2048x256_2_2_1_1_0_0 : DotDims S4x2048x2048 S4x256x2048 S4x2048x256 where
  lhsContracting := [2]
  rhsContracting := [2]
  lhsNonContracting := [1]
  rhsNonContracting := [1]
  lhsBatch := [0]
  rhsBatch := [0]
  wf := dot_S4x2048x2048_S4x256x2048_S4x2048x256_2_2_1_1_0_0_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x256_S2048x256_S4x2048x2048_2_1_01_0_n_n : DotDims S4x2048x256 S2048x256 S4x2048x2048 where
  lhsContracting := [2]
  rhsContracting := [1]
  lhsNonContracting := [0, 1]
  rhsNonContracting := [0]
  lhsBatch := []
  rhsBatch := []
  wf := dot_S4x2048x256_S2048x256_S4x2048x2048_2_1_01_0_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Layer.lean ====
/-
  The layer this certificate is about, as one function of its arrays.

  A token `(b, j)` of the input `X : [4, 2048, 2048]` is sent through a dense layer `W : [2048, 2048]`
  (rows are output features) with bias `Bv : [2048]`, and, beside it, through a per-batch low-rank path: its
  `code` against the 256 rows of the scaled state `S : [4, 256, 2048]` of batch `b`, projected back by
  `P : [2048, 256]`:

      code X S b j r   = ∑ i, X[b, j, i] · S[b, r, i]
      layer … b j o    = (∑ i, X[b, j, i] · W[o, i]  +  ∑ r, code X S b j r · P[o, r])  +  Bv[o].

  Everything is over the extended reals. The only law used between the two ways the three terms are added is that
  addition there is commutative and associative, which needs no finiteness.
-/
import Idealize.ShloMosaic.Lib.ValueIdx
import Idealize.ShloMosaic.PureOps.Ideal.Laws

noncomputable section

namespace Cert.FastWeight

open Idealize.ShloMosaic Idealize.ShloMosaic.ValueIdx

/-- The low-rank code of token `(b, j)`: its input row against row `r` of batch `b`'s scaled state. -/
def code (X : FVec Ideal ⟨3, ![4, 2048, 2048]⟩ .f32) (S : FVec Ideal ⟨3, ![4, 256, 2048]⟩ .f32)
    (b : Fin 4) (j : Fin 2048) (r : Fin 256) : EReal :=
  ∑ i : Fin 2048, X (ix3 b j i) * S (ix3 b r i)

/-- Output feature `o` of token `(b, j)`: the dense product plus the projected code, then the bias. -/
def layer (X : FVec Ideal ⟨3, ![4, 2048, 2048]⟩ .f32) (W : FVec Ideal ⟨2, ![2048, 2048]⟩ .f32)
    (Bv : FVec Ideal ⟨1, ![2048]⟩ .f32) (S : FVec Ideal ⟨3, ![4, 256, 2048]⟩ .f32)
    (P : FVec Ideal ⟨2, ![2048, 256]⟩ .f32) (b : Fin 4) (j : Fin 2048) (o : Fin 2048) : EReal :=
  ((∑ i : Fin 2048, X (ix3 b j i) * W (ix2 o i)) + ∑ r : Fin 256, code X S b j r * P (ix2 o r)) + Bv (ix1 o)

/-- The whole output array. -/
def layerArr (X : FVec Ideal ⟨3, ![4, 2048, 2048]⟩ .f32) (W : FVec Ideal ⟨2, ![2048, 2048]⟩ .f32)
    (Bv : FVec Ideal ⟨1, ![2048]⟩ .f32) (S : FVec Ideal ⟨3, ![4, 256, 2048]⟩ .f32)
    (P : FVec Ideal ⟨2, ![2048, 256]⟩ .f32) : FVec Ideal ⟨3, ![4, 2048, 2048]⟩ .f32 :=
  fun y => layer X W Bv S P (y 0) (y 1) (y 2)

/-- At an index written by its coordinates. -/
theorem layerArr_ix3 (X : FVec Ideal ⟨3, ![4, 2048, 2048]⟩ .f32) (W : FVec Ideal ⟨2, ![2048, 2048]⟩ .f32)
    (Bv : FVec Ideal ⟨1, ![2048]⟩ .f32) (S : FVec Ideal ⟨3, ![4, 256, 2048]⟩ .f32)
    (P : FVec Ideal ⟨2, ![2048, 256]⟩ .f32) (b : Fin 4) (j : Fin 2048) (o : Fin 2048) :
    layerArr X W Bv S P (ix3 b j o) = layer X W Bv S P b j o := rfl

/-- The same three terms with the bias added before the projected code: the order a plain
    `x Wᵀ + bias + z Pᵀ` adds them in. -/
theorem layer_bias_first (X : FVec Ideal ⟨3, ![4, 2048, 2048]⟩ .f32) (W : FVec Ideal ⟨2, ![2048, 2048]⟩ .f32)
    (Bv : FVec Ideal ⟨1, ![2048]⟩ .f32) (S : FVec Ideal ⟨3, ![4, 256, 2048]⟩ .f32)
    (P : FVec Ideal ⟨2, ![2048, 256]⟩ .f32) (b : Fin 4) (j : Fin 2048) (o : Fin 2048) :
    ((∑ i : Fin 2048, X (ix3 b j i) * W (ix2 o i)) + Bv (ix1 o)) + ∑ r : Fin 256, code X S b j r * P (ix2 o r)
      = layer X W Bv S P b j o := by
  unfold layer
  exact add_right_comm _ _ _

end Cert.FastWeight

end
-- ==== Proof.KernelTile.lean ====
/-
  What the kernel body stores, read at one entry.

  At a grid point the body holds a 256-row tile `x0` of one batch's tokens, that batch's scaled state transposed
  (`x1 : [1, 2048, 256]`), the dense weight transposed (`x2 : [2048, 2048]`), the projection transposed
  (`x3 : [256, 2048]`) and the bias as one row (`x4 : [1, 2048]`). It forms three matrix products into a zero
  accumulator: the tile's codes `x0 · x1`, the dense part `x0 · x2`, the projected codes `codes · x3`; adds
  the last two, then the bias row. Over the extended reals a product into zero is the plain sum over the contracted
  axis and a change of float format is the identity, so entry `(p, q)` of the stored tile is

      (∑ k, x0[p, k] · x2[k, q]  +  ∑ r, (∑ k, x0[p, k] · x1[k, r]) · x3[r, q])  +  x4[q].

  `tile_is_layer` then says: if the five blocks are the corresponding pieces of the layer's arrays (token row `j`
  of batch `b`; the transposes read back), that entry is the layer's output feature `q` of token `(b, j)`.
-/
import proofs.«125325_j48919677501653_1_alg».proof.Proof.Gen.KernelIdeal.Skeleton
import proofs.«125325_j48919677501653_1_alg».proof.Proof.LibPlainDot
import proofs.«125325_j48919677501653_1_alg».proof.Proof.Layer
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx
open Cert.Lib.PlainDot Cert.FastWeight

/-- The codes' product `[256, 2048] · [2048, 256]` into zero, at an entry. -/
theorem codes_apply (l : FVec Ideal S256x2048 .bf16) (r : FVec Ideal S2048x256 .bf16) (p : Fin 256) (q : Fin 256) :
    FloatOps.matmul dot_S256x2048_S2048x256_S256x256_1_0_0_1_n_n none l r (constant (F := Ideal) S256x256 .f32 0x00000000#32) (ix2 p q)
      = ∑ k : Fin 2048, l (ix2 p k) * r (ix2 k q) :=
  matmul_zero_apply (M := 256) (K := 2048) (N := 256) none l r p q

/-- The dense product `[256, 2048] · [2048, 2048]` into zero, at an entry. -/
theorem dense_apply (l : FVec Ideal S256x2048 .bf16) (r : FVec Ideal S2048x2048 .bf16) (p : Fin 256) (q : Fin 2048) :
    FloatOps.matmul dot_S256x2048_S2048x2048_S256x2048_1_0_0_1_n_n none l r (constant (F := Ideal) S256x2048 .f32 0x00000000#32) (ix2 p q)
      = ∑ k : Fin 2048, l (ix2 p k) * r (ix2 k q) :=
  matmul_zero_apply (M := 256) (K := 2048) (N := 2048) none l r p q

/-- The projection `[256, 256] · [256, 2048]` into zero, at an entry. -/
theorem proj_apply (l : FVec Ideal S256x256 .bf16) (r : FVec Ideal S256x2048 .bf16) (p : Fin 256) (q : Fin 2048) :
    FloatOps.matmul dot_S256x256_S256x2048_S256x2048_1_0_0_1_n_n none l r (constant (F := Ideal) S256x2048 .f32 0x00000000#32) (ix2 p q)
      = ∑ k : Fin 256, l (ix2 p k) * r (ix2 k q) :=
  matmul_zero_apply (M := 256) (K := 256) (N := 2048) none l r p q

/-- THE STORED TILE AT AN ENTRY, as sums over the blocks' entries. -/
theorem tile_apply (x0 : FVec Ideal S1x256x2048 .bf16) (x1 : FVec Ideal S1x2048x256 .bf16)
    (x2 : FVec Ideal S2048x2048 .bf16) (x3 : FVec Ideal S256x2048 .bf16) (x4 : FVec Ideal S1x2048 .f32)
    (u : Fin 1) (p : Fin 256) (q : Fin 2048) :
    k0_pay1 (F := Ideal) x0 x1 x2 x3 x4 (ix3 u p q)
      = ((∑ k : Fin 2048, x0 (ix3 (0 : Fin 1) p k) * x2 (ix2 k q))
          + ∑ r : Fin 256, (∑ k : Fin 2048, x0 (ix3 (0 : Fin 1) p k) * x1 (ix3 (0 : Fin 1) k r)) * x3 (ix2 r q))
        + x4 (ix2 (0 : Fin 1) q) := by
  unfold k0_pay1
  refine (shapeCast_ab_1ab_apply _ _ u p q).trans ?_
  rw [addf_apply, addf_apply, broadcastTo_1b_ab_apply]
  simp only [matmul]
  rw [dense_apply, proj_apply]
  simp only [truncf_apply, codes_apply, shapeCast_1ab_ab_apply, shapeCast_self]

/-- THE TILE IS THE LAYER: with the blocks the pieces of the layer's arrays that belong to token `(b, j)` — the
    token's row; batch `b`'s scaled state, the dense weight and the projection each read transposed; the bias row —
    entry `(p, q)` of the stored tile is output feature `q` of that token. -/
theorem tile_is_layer (x0 : FVec Ideal S1x256x2048 .bf16) (x1 : FVec Ideal S1x2048x256 .bf16)
    (x2 : FVec Ideal S2048x2048 .bf16) (x3 : FVec Ideal S256x2048 .bf16) (x4 : FVec Ideal S1x2048 .f32)
    (X : FVec Ideal ⟨3, ![4, 2048, 2048]⟩ .f32) (W : FVec Ideal ⟨2, ![2048, 2048]⟩ .f32)
    (Bv : FVec Ideal ⟨1, ![2048]⟩ .f32) (S : FVec Ideal ⟨3, ![4, 256, 2048]⟩ .f32)
    (P : FVec Ideal ⟨2, ![2048, 256]⟩ .f32) (b : Fin 4) (j : Fin 2048) (u : Fin 1) (p : Fin 256) (q : Fin 2048)
    (h0 : ∀ k : Fin 2048, x0 (ix3 (0 : Fin 1) p k) = X (ix3 b j k))
    (h1 : ∀ (k : Fin 2048) (r : Fin 256), x1 (ix3 (0 : Fin 1) k r) = S (ix3 b r k))
    (h2 : ∀ k : Fin 2048, x2 (ix2 k q) = W (ix2 q k))
    (h3 : ∀ r : Fin 256, x3 (ix2 r q) = P (ix2 q r))
    (h4 : x4 (ix2 (0 : Fin 1) q) = Bv (ix1 q)) :
    k0_pay1 (F := Ideal) x0 x1 x2 x3 x4 (ix3 u p q) = layer X W Bv S P b j q := by
  rw [tile_apply]
  unfold layer code
  simp only [h0, h1, h2, h3, h4]

end Cert.KernelIdeal.Tile

end
-- ==== Proof.KernelValue.lean ====
/-
  The kernel's result array is the layer.

  The grid has a point per batch `b` (4) and per tile of 256 token rows (8). Before the region the host leaves, for
  the region's windows: the tokens unchanged (window 0, cut into `[1, 256, 2048]` row tiles); the scaled state
  transposed to `[4, 2048, 256]` (window 1, one batch per block); the dense weight and the projection each
  transposed and the bias as one row (windows 2, 3, 4, whole). A change of float format is the identity over the
  extended reals, so at a point `t` with block indices `(b, τ)` of the output window the five blocks are exactly the
  pieces of the layer's arrays that belong to the tokens `(b, 256·τ + p)`, and what the body stores
  (Proof/KernelTile.lean) is the output tile of the layer at those tokens. The 32 output tiles cover the array, so
  it ends holding the layer.
-/
import proofs.«125325_j48919677501653_1_alg».proof.Proof.Gen.KernelIdeal.Value
import proofs.«125325_j48919677501653_1_alg».proof.Proof.KernelTile
import Idealize.ShloMosaic.Lib.StableHlo.Run

noncomputable section

namespace Cert.KernelIdeal.Whole

open Cert.KernelIdeal Cert.KernelIdeal.Gen Cert.KernelIdeal.Tile Cert.FastWeight
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The scaled state, and the arrays the host leaves for the windows -/

/-- The scaled state `0.01 · exp(log_lr · √2048) · state` as the host forms it, carried as one function of the two
    arguments; its arithmetic is never opened. -/
def scaledState (L : FVec Ideal S256x2048 .f32) (St : FVec Ideal S4x256x2048 .f32) : FVec Ideal S4x256x2048 .f32 :=
  mulf (broadcastInDim S4x256x2048 ![0, 1, 2] bcast_S1x256x2048_S4x256x2048_0_1_2
    (broadcastInDim S1x256x2048 ![1, 2] bcast_S256x2048_S1x256x2048_1_2
      (mulf (broadcastInDim S256x2048 ![] bcast_S_S256x2048 (constant (F := Ideal) S_ .f32 0x3C23D70A#32))
        (Host.exp (F := Ideal) (mulf L (broadcastInDim S256x2048 ![] bcast_S_S256x2048 (constant (F := Ideal) S_ .f32 0x423504F3#32))))))) St

/-- The layer of the argument arrays as launched: what the result array will be shown to hold. -/
def result (c : Dev nD) : FVec Ideal S4x2048x2048 .f32 :=
  layerArr (m ((c : Thread nD τ).loc main_arg0)) (m ((c : Thread nD τ).loc main_arg1)) (m ((c : Thread nD τ).loc main_arg2))
    (scaledState (m ((c : Thread nD τ).loc main_arg3)) (m ((c : Thread nD τ).loc main_arg5))) (m ((c : Thread nD τ).loc main_arg4))

/-- Window 0's array holds the tokens. -/
theorem tokens_at (c : Dev nD) (i : S4x2048x2048.Idx) :
    (V m c main_v10 : S4x2048x2048.Idx → EReal) i = m ((c : Thread nD τ).loc main_arg0) i := by
  have e : (V m c main_v10 : S4x2048x2048.Idx → EReal) = truncf (F := Ideal) .bf16 (m ((c : Thread nD τ).loc main_arg0)) bitsLt_bf16_f32 := by
    dsimp only [Gen.V, Gen.hostOps0]; after_results; try rfl
  rw [e]; rfl

/-- Window 1's array holds the scaled state with its last two axes exchanged. -/
theorem state_at (c : Dev nD) (b : Fin 4) (k : Fin 2048) (r : Fin 256) :
    (V m c main_v9 : S4x2048x256.Idx → EReal) (ix3 b k r)
      = scaledState (m ((c : Thread nD τ).loc main_arg3)) (m ((c : Thread nD τ).loc main_arg5)) (ix3 b r k) := by
  have e : (V m c main_v9 : S4x2048x256.Idx → EReal)
      = truncf (F := Ideal) .bf16 (transpose S4x2048x256 [0, 2, 1]
          (scaledState (m ((c : Thread nD τ).loc main_arg3)) (m ((c : Thread nD τ).loc main_arg5)))
          transposes_S4x256x2048_S4x2048x256_0_2_1) bitsLt_bf16_f32 := by
    dsimp only [Gen.V, Gen.hostOps0]; after_results; try rfl
  rw [e, truncf_apply]
  exact transpose_ix3_021_apply _ _ b k r

/-- Window 2's array holds the dense weight transposed. -/
theorem dense_at (c : Dev nD) (k q : Fin 2048) :
    (V m c main_v12 : S2048x2048.Idx → EReal) (ix2 k q) = m ((c : Thread nD τ).loc main_arg1) (ix2 q k) := by
  have e : (V m c main_v12 : S2048x2048.Idx → EReal)
      = truncf (F := Ideal) .bf16 (transpose S2048x2048 [1, 0] (m ((c : Thread nD τ).loc main_arg1)) transposes_S2048x2048_S2048x2048_1_0) bitsLt_bf16_f32 := by
    dsimp only [Gen.V, Gen.hostOps0]; after_results; try rfl
  rw [e, truncf_apply]
  exact transpose_ix2_apply _ _ k q

/-- Window 3's array holds the projection transposed. -/
theorem proj_at (c : Dev nD) (r : Fin 256) (q : Fin 2048) :
    (V m c main_v14 : S256x2048.Idx → EReal) (ix2 r q) = m ((c : Thread nD τ).loc main_arg4) (ix2 q r) := by
  have e : (V m c main_v14 : S256x2048.Idx → EReal)
      = truncf (F := Ideal) .bf16 (transpose S256x2048 [1, 0] (m ((c : Thread nD τ).loc main_arg4)) transposes_S2048x256_S256x2048_1_0) bitsLt_bf16_f32 := by
    dsimp only [Gen.V, Gen.hostOps0]; after_results; try rfl
  rw [e, truncf_apply]
  exact transpose_ix2_apply _ _ r q

/-- Window 4's array holds the bias as one row. -/
theorem bias_at (c : Dev nD) (u : Fin 1) (q : Fin 2048) :
    (V m c main_v15 : S1x2048.Idx → EReal) (ix2 u q) = m ((c : Thread nD τ).loc main_arg2) (ix1 q) := by
  have e : (V m c main_v15 : S1x2048.Idx → EReal)
      = shapeCast S1x2048 (m ((c : Thread nD τ).loc main_arg2)) shapeCasts_S2048_S1x2048 := by
    dsimp only [Gen.V, Gen.hostOps0]; after_results; try rfl
  rw [e]
  exact shapeCast_a_1a_apply _ _ u q

/-! ## The windows' block indices over the grid -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Decided over the 32 points: the token window moves with the output window; the state window follows its batch;
    the weight, projection and bias windows stay at block zero; the output's block indices are a batch below 4, a
    row tile below 8, and column block zero. -/
theorem block_indices : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 7 ∧ win0_5.index t (2 : Fin 3) = 0 :=
  (by decide +kernel : ∀ t : Fin grid0.N, _)

/-- Every (batch, row tile) pair is some point's output block. -/
theorem block_onto : ∀ (b : Fin 4) (s : Fin 8), ∃ t : Fin cfg0.N, win0_5.index t = ![b.val, s.val, 0] :=
  (by decide +kernel : ∀ (b : Fin 4) (s : Fin 8), ∃ t : Fin grid0.N, win0_5.index t = ![b.val, s.val, 0])

/-! ## What a point writes back -/

/-- POINT `t` WRITES BACK ITS TILE OF THE LAYER. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zeros3]
  simp only [View.ld_unit_zero (S := S1x256x2048) zeros3, View.ld_unit_zero (S := S1x2048x256) zeros3,
    View.ld_unit_zero (S := S2048x2048) zeros2, View.ld_unit_zero (S := S256x2048) zeros2,
    View.ld_unit_zero (S := S1x2048) zeros2]
  obtain ⟨e00, e01, e02, e10, e11, e12, e20, e21, e30, e31, e40, e41, hb, hs, e52⟩ := block_indices t
  funext y
  obtain ⟨u, p, q, rfl⟩ : ∃ (u : Fin 1) (p : Fin 256) (q : Fin 2048), y = ix3 u p q := ⟨y 0, y 1, y 2, eq_ix3 y⟩
  have hu : u.val = 0 := by omega
  have hp : p.val < 256 := p.isLt
  have hq : q.val < 2048 := q.isLt
  -- the tokens this entry belongs to
  let b : Fin 4 := ⟨win0_5.index t (0 : Fin 3), by omega⟩
  let j : Fin 2048 := ⟨win0_5.index t (1 : Fin 3) * 256 + p.val, by omega⟩
  have hemb : ((cfg0.win 5).blk t).view.emb (ix3 u p q) = ix3 b j q := by
    funext a; apply Fin.ext
    match a with
    | ⟨0, _⟩ => show win0_5.index t (0 : Fin 3) * 1 + 1 * u.val = win0_5.index t (0 : Fin 3); omega
    | ⟨1, _⟩ => show win0_5.index t (1 : Fin 3) * 256 + 1 * p.val = win0_5.index t (1 : Fin 3) * 256 + p.val; omega
    | ⟨2, _⟩ => show win0_5.index t (2 : Fin 3) * 2048 + 1 * q.val = q.val; omega
  show k0_pay1 (F := Ideal) (iblk m c 0 t) (iblk m c 1 t) (iblk m c 2 t) (iblk m c 3 t) (iblk m c 4 t) (ix3 u p q)
    = result m c (((cfg0.win 5).blk t).view.emb (ix3 u p q))
  rw [hemb]
  refine tile_is_layer (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (scaledState (m ((c : Thread nD τ).loc main_arg3)) (m ((c : Thread nD τ).loc main_arg5))) (m ((c : Thread nD τ).loc main_arg4))
    b j u p q ?_ ?_ ?_ ?_ ?_
  · intro k
    have hk : k.val < 2048 := k.isLt
    show (V m c main_v10 : S4x2048x2048.Idx → EReal) (((cfg0.win 0).blk t).view.emb (ix3 (0 : Fin 1) p k)) = _
    rw [tokens_at]
    refine congrArg (m ((c : Thread nD τ).loc main_arg0)) (funext fun a => Fin.ext ?_)
    match a with
    | ⟨0, _⟩ => show win0_0.index t (0 : Fin 3) * 1 + 1 * 0 = win0_5.index t (0 : Fin 3); omega
    | ⟨1, _⟩ => show win0_0.index t (1 : Fin 3) * 256 + 1 * p.val = win0_5.index t (1 : Fin 3) * 256 + p.val; omega
    | ⟨2, _⟩ => show win0_0.index t (2 : Fin 3) * 2048 + 1 * k.val = k.val; omega
  · intro k r
    have hk : k.val < 2048 := k.isLt
    have hr : r.val < 256 := r.isLt
    show (V m c main_v9 : S4x2048x256.Idx → EReal) (((cfg0.win 1).blk t).view.emb (ix3 (0 : Fin 1) k r)) = _
    have hidx : ((cfg0.win 1).blk t).view.emb (ix3 (0 : Fin 1) k r) = ix3 b k r := by
      funext a; apply Fin.ext
      match a with
      | ⟨0, _⟩ => show win0_1.index t (0 : Fin 3) * 1 + 1 * 0 = win0_5.index t (0 : Fin 3); omega
      | ⟨1, _⟩ => show win0_1.index t (1 : Fin 3) * 2048 + 1 * k.val = k.val; omega
      | ⟨2, _⟩ => show win0_1.index t (2 : Fin 3) * 256 + 1 * r.val = r.val; omega
    rw [hidx]
    exact state_at m c b k r
  · intro k
    have hk : k.val < 2048 := k.isLt
    show (V m c main_v12 : S2048x2048.Idx → EReal) (((cfg0.win 2).blk t).view.emb (ix2 k q)) = _
    have hidx : ((cfg0.win 2).blk t).view.emb (ix2 k q) = ix2 k q := by
      funext a; apply Fin.ext
      match a with
      | ⟨0, _⟩ => show win0_2.index t (0 : Fin 2) * 2048 + 1 * k.val = k.val; omega
      | ⟨1, _⟩ => show win0_2.index t (1 : Fin 2) * 2048 + 1 * q.val = q.val; omega
    rw [hidx]
    exact dense_at m c k q
  · intro r
    have hr : r.val < 256 := r.isLt
    show (V m c main_v14 : S256x2048.Idx → EReal) (((cfg0.win 3).blk t).view.emb (ix2 r q)) = _
    have hidx : ((cfg0.win 3).blk t).view.emb (ix2 r q) = ix2 r q := by
      funext a; apply Fin.ext
      match a with
      | ⟨0, _⟩ => show win0_3.index t (0 : Fin 2) * 256 + 1 * r.val = r.val; omega
      | ⟨1, _⟩ => show win0_3.index t (1 : Fin 2) * 2048 + 1 * q.val = q.val; omega
    rw [hidx]
    exact proj_at m c r q
  · show (V m c main_v15 : S1x2048.Idx → EReal) (((cfg0.win 4).blk t).view.emb (ix2 (0 : Fin 1) q)) = _
    have hidx : ((cfg0.win 4).blk t).view.emb (ix2 (0 : Fin 1) q) = ix2 (0 : Fin 1) q := by
      funext a; apply Fin.ext
      match a with
      | ⟨0, _⟩ => show win0_4.index t (0 : Fin 2) * 1 + 1 * 0 = 0; omega
      | ⟨1, _⟩ => show win0_4.index t (1 : Fin 2) * 2048 + 1 * q.val = q.val; omega
    rw [hidx]
    exact bias_at m c 0 q

/-! ## The tiles cover the array -/

/-- An index of the array is in point `t`'s tile iff each coordinate is in the tile's range on its axis. -/
theorem mem_tile (t : Fin cfg0.N) (i : S4x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v16).slice (win0_5.rect t)).set ↔ _
  rw [View.set_slice_whole, Rect.mem_set_unit]
  exact Iff.rfl

/-- Token `(b, j)` lies in the tile of batch `b`, row tile `j / 256`. -/
theorem covered (i : S4x2048x2048.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  obtain ⟨t, ht⟩ := block_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- THE RESULT ARRAY after the run is the layer. -/
theorem final (c : Dev nD) : (dats m 0 c).arrAt 5 cfg0.N = result m c :=
  (dats m 0 c).arrAt_eq_of_cover 5 (result m c) (fun t _ => flushed_eq m c t) covered

/-! ## The run, read -/

/-- Every weakly fair execution of the kernel's program ends with the result array at the layer of the arguments as
    launched, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefValue.lean ====
/-
  The reference, read entry by entry, is the layer.

  The reference forms the scaled state (its stage `%7`), the codes `z[b, j, r] = ∑ i, x[b, j, i] · s[b, r, i]` by
  a batched product, the dense product `∑ i, x[b, j, i] · w[o, i]`, adds the bias, and then adds the projected codes
  `∑ r, z[b, j, r] · p[o, r]`. Entry `(b, j, o)` of its result is therefore the layer's three terms with the bias
  added second; addition of extended reals being commutative and associative, that is the layer.
  The scaled state itself is carried as one array: the stage `%7` is never opened here.
-/
import proofs.«125325_j48919677501653_1_alg».proof.Proof.Gen.ReferenceIdeal.Read
import proofs.«125325_j48919677501653_1_alg».proof.Proof.Layer

noncomputable section

namespace Cert.ReferenceIdeal.RefValue

open Cert.ReferenceIdeal Cert.ReferenceIdeal.Read Idealize.ShloMosaic Idealize.ShloMosaic.ValueIdx Cert.FastWeight

/-! ## Where each stage reads its operands, by coordinates -/

theorem dense_lhs (b : Fin 4) (j o k : Fin 2048) : lidx_main_v9 (ix3 b j o) k = ix3 b j k :=
  funext fun a => match a with | ⟨0, _⟩ => rfl | ⟨1, _⟩ => rfl | ⟨2, _⟩ => rfl
theorem dense_rhs (b : Fin 4) (j o k : Fin 2048) : ridx_main_v9 (ix3 b j o) k = ix2 o k :=
  funext fun a => match a with | ⟨0, _⟩ => rfl | ⟨1, _⟩ => rfl
theorem bias_idx (b : Fin 4) (j o : Fin 2048) : idx_main_v10 (idx_main_v11 (ix3 b j o)) = ix1 o :=
  funext fun a => match a with | ⟨0, _⟩ => rfl
theorem proj_lhs (b : Fin 4) (j o : Fin 2048) (r : Fin 256) : lidx_main_v13 (ix3 b j o) r = ix3 b j r :=
  funext fun a => match a with | ⟨0, _⟩ => rfl | ⟨1, _⟩ => rfl | ⟨2, _⟩ => rfl
theorem proj_rhs (b : Fin 4) (j o : Fin 2048) (r : Fin 256) : ridx_main_v13 (ix3 b j o) r = ix2 o r :=
  funext fun a => match a with | ⟨0, _⟩ => rfl | ⟨1, _⟩ => rfl
theorem code_lhs (b : Fin 4) (j : Fin 2048) (r : Fin 256) (k : Fin 2048) : lidx_main_v8 (ix3 b j r) k = ix3 b j k :=
  funext fun a => match a with | ⟨0, _⟩ => rfl | ⟨1, _⟩ => rfl | ⟨2, _⟩ => rfl
theorem code_rhs (b : Fin 4) (j : Fin 2048) (r : Fin 256) (k : Fin 2048) : ridx_main_v8 (ix3 b j r) k = ix3 b r k :=
  funext fun a => match a with | ⟨0, _⟩ => rfl | ⟨1, _⟩ => rfl | ⟨2, _⟩ => rfl

/-! ## The result stage -/

/-- THE REFERENCE'S RESULT IS THE LAYER of its arguments and its own scaled-state stage. -/
theorem result_is_layer (X : FVec Ideal S4x2048x2048 .f32) (W : FVec Ideal S2048x2048 .f32) (Bv : FVec Ideal S2048 .f32)
    (L : FVec Ideal S256x2048 .f32) (P : FVec Ideal S2048x256 .f32) (St : FVec Ideal S4x256x2048 .f32) :
    val_main_v14 (F := Ideal) X W Bv L P St = layerArr X W Bv (val_main_v7 (F := Ideal) L St) P := by
  funext y
  obtain ⟨b, j, o, rfl⟩ : ∃ (b : Fin 4) (j : Fin 2048) (o : Fin 2048), y = ix3 b j o := ⟨y 0, y 1, y 2, eq_ix3 y⟩
  rw [layerArr_ix3, ← layer_bias_first]
  unfold code
  rw [val_main_v14_apply, val_main_v12_apply, val_main_v9_apply, val_main_v11_apply, val_main_v10_apply,
    val_main_v13_apply]
  simp only [val_main_v8_apply, dense_lhs, dense_rhs, bias_idx, proj_lhs, proj_rhs, code_lhs, code_rhs]
  rfl

end Cert.ReferenceIdeal.RefValue

end
-- ==== Proof.lean ====
/-
  A dense layer with a per-batch low-rank correction, computed in 256-row tiles, against its plain formula.

  Both programs compute, for a token `(b, j)` and an output feature `o`,

      y[b, j, o] = ∑ i, x[b, j, i] · w[o, i]  +  bias[o]  +  ∑ r, (∑ i, x[b, j, i] · s[b, r, i]) · p[o, r],

  where `s = 0.01 · exp(log_lr · √2048) · state` is formed by the same host operations, from the same two literals,
  in both. The kernel transposes `s`, `w` and `p` on the host, tiles the tokens by (batch, 256 rows), forms the three
  products on the matrix unit in each tile and adds the bias last; the reference forms three batched products and
  adds the bias second. Over the extended reals a product into a zero accumulator is the plain sum, a change of
  float format is the identity, and addition is commutative and associative whatever the operands, so the two
  results are equal entry by entry with no use of finiteness: Proof/Layer.lean states the formula,
  Proof/KernelTile.lean reads the stored tile at an entry, Proof/KernelValue.lean carries the tiles to the whole
  result array, Proof/RefValue.lean reads the reference. The unused argument `momentum` is read by neither.
  The ideal pass rewrote nothing, so `preserves` is `True`.
-/
import proofs.«125325_j48919677501653_1_alg».proof.Defs
import proofs.«125325_j48919677501653_1_alg».proof.Proof.Gen.Kernel
import proofs.«125325_j48919677501653_1_alg».proof.Proof.Gen.Kernel.Skeleton
import proofs.«125325_j48919677501653_1_alg».proof.Proof.Gen.Kernel.Launch
import proofs.«125325_j48919677501653_1_alg».proof.Proof.Gen.Kernel.Points
import proofs.«125325_j48919677501653_1_alg».proof.Proof.Gen.Kernel.Frame
import proofs.«125325_j48919677501653_1_alg».proof.Proof.Gen.KernelIdeal
import proofs.«125325_j48919677501653_1_alg».proof.Proof.Gen.KernelIdeal.Skeleton
import proofs.«125325_j48919677501653_1_alg».proof.Proof.Gen.KernelIdeal.Launch
import proofs.«125325_j48919677501653_1_alg».proof.Proof.Gen.KernelIdeal.Points
import proofs.«125325_j48919677501653_1_alg».proof.Proof.Gen.KernelIdeal.Frame
import proofs.«125325_j48919677501653_1_alg».proof.Proof.Gen.ReferenceIdeal
import proofs.«125325_j48919677501653_1_alg».proof.Proof.Gen.Pre_finite_inputs
import proofs.«125325_j48919677501653_1_alg».proof.Proof.Gen.KernelIdeal.Value
import proofs.«125325_j48919677501653_1_alg».proof.Proof.Gen.ReferenceIdeal.Run
import proofs.«125325_j48919677501653_1_alg».proof.Proof.Gen.ReferenceIdeal.Read
import proofs.«125325_j48919677501653_1_alg».proof.Proof.KernelValue
import proofs.«125325_j48919677501653_1_alg».proof.Proof.RefValue
import Idealize.ShloMosaic.Adequacy
import Idealize.ShloMosaic.Init

noncomputable section

namespace Cert.Proof

open Idealize.ShloMosaic Idealize.ShloMosaic.TcCoe Idealize.SL.Sem

/-- The scaled state the kernel's host prefix forms is the reference's stage `%7`: the same operations, in the same
    order, on the same two arguments and the same two literals. -/
theorem scaledState_eq (L : FVec Ideal Cert.KernelIdeal.S256x2048 .f32) (St : FVec Ideal Cert.KernelIdeal.S4x256x2048 .f32) :
    Cert.KernelIdeal.Whole.scaledState L St = Cert.ReferenceIdeal.Read.val_main_v7 (F := Ideal) L St := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the layer of the (agreeing) arguments. -/
theorem algebraic : Cert.algebraic_KernelIdeal_ReferenceIdeal := by
  intro m ρ m' ρ' _ hagree
  refine ⟨Cert.KernelIdeal.Whole.result m, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, _⟩ := hagree c
  rw [a0, a1, a2, a3, a4, a5]
  refine (Cert.ReferenceIdeal.Read.val_main_v14_eq _ _ _ _ _ _).trans
    ((Cert.ReferenceIdeal.RefValue.result_is_layer _ _ _ _ _ _).trans ?_)
  unfold Cert.KernelIdeal.Whole.result
  rw [scaledState_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
